-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x7x4 : Shape := ⟨3, ![4096, 7, 4]⟩
abbrev S_ : Shape := ⟨0, ![]⟩

class Facts : Prop where
  bcast_S_S4096x7x4 : S_.BroadcastsInDim S4096x7x4 (![] : Fin 0 → Fin S4096x7x4.rank)
  reducesTo_S4096x7x4_S_d0_1_2 : S4096x7x4.ReducesTo [0, 1, 2] S_
  h_S_ : 0 < S_.numel

variable [Facts]

def fn {F : FTy → Type} [FloatOps F] (main_arg0 : FVec F S4096x7x4 .f32) : IVec S_ 1 :=
  let main_v0 : FVec F S4096x7x4 .f32 := Host.absf main_arg0
  let main_cst : FVec F S_ .f32 := constant S_ .f32 0x7F800000#32
  let main_v1 : FVec F S4096x7x4 .f32 := broadcastInDim S4096x7x4 ![] bcast_S_S4096x7x4 main_cst
  let main_v2 : IVec S4096x7x4 1 := cmpf .olt main_v0 main_v1
  let main_c : IVec S_ 1 := constantI S_ 1 1#1
  let main_v3 : IVec S_ 1 := (fun x v => Host.reduce IntOp.andi x v reducesTo_S4096x7x4_S_d0_1_2 h_S_) main_v2 main_c
  main_v3
-- ==== Kernel.lean ====
abbrev S4096x7x4 : Shape := ⟨3, ![4096, 7, 4]⟩
abbrev S4096x28 : Shape := ⟨2, ![4096, 28]⟩
abbrev S4096x16384 : Shape := ⟨2, ![4096, 16384]⟩
abbrev S128x28 : Shape := ⟨2, ![128, 28]⟩
abbrev S128x16384 : Shape := ⟨2, ![128, 16384]⟩
abbrev S128x1 : Shape := ⟨2, ![128, 1]⟩
abbrev S128x4 : Shape := ⟨2, ![128, 4]⟩
abbrev S128x16 : Shape := ⟨2, ![128, 16]⟩
abbrev S128x64 : Shape := ⟨2, ![128, 64]⟩
abbrev S128x256 : Shape := ⟨2, ![128, 256]⟩
abbrev S128x1024 : Shape := ⟨2, ![128, 1024]⟩
abbrev S128x4096 : Shape := ⟨2, ![128, 4096]⟩

abbrev nBuf : Space → Nat
  | .hbm => 3
  | .vmem => 4
  | .smem => 0
  | _ => 0

abbrev bufTy : (tb : Table) → Fin (tcTables nBuf tb) → BufTy
  | .hbm, ⟨0, _⟩ => ⟨S4096x7x4, .f32⟩
  | .hbm, ⟨1, _⟩ => ⟨S4096x28, .f32⟩
  | .hbm, ⟨2, _⟩ => ⟨S4096x16384, .f32⟩
  | .local _ .vmem, ⟨0, _⟩ => ⟨S128x28, .f32⟩
  | .local _ .vmem, ⟨1, _⟩ => ⟨S128x28, .f32⟩
  | .local _ .vmem, ⟨2, _⟩ => ⟨S128x16384, .f32⟩
  | .local _ .vmem, ⟨3, _⟩ => ⟨S128x16384, .f32⟩
  | _, _ => ⟨S4096x7x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x28 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S4096x7x4_S4096x28 : S4096x7x4.ShapeCasts S4096x28
  inb_S128x28_S128x28_0_0 : ∀ a, (![0, 0] : Fin 2 → Nat) a + S128x28.size a ≤ S128x28.size a
  h_S128x28 : 0 < S128x28.numel
  shapeCasts_S128x28_S128x28 : S128x28.ShapeCasts S128x28
  slices_S128x28_o0_24_S128x4 : S128x28.Slices ![0, 24] S128x4
  slices_S128x4_o0_0_S128x1 : S128x4.Slices ![0, 0] S128x1
  slices_S128x4_o0_1_S128x1 : S128x4.Slices ![0, 1] S128x1
  slices_S128x4_o0_2_S128x1 : S128x4.Slices ![0, 2] S128x1
  slices_S128x4_o0_3_S128x1 : S128x4.Slices ![0, 3] S128x1
  concatenates_S128x1_S128x1_S128x1_S128x1_S128x4_d1 : Shape.Concatenates [S128x1, S128x1, S128x1, S128x1] S128x4 1
  slices_S128x28_o0_20_S128x4 : S128x28.Slices ![0, 20] S128x4
  broadcasts_S128x1_S128x4 : S128x1.Broadcasts S128x4
  concatenates_S128x4_S128x4_S128x4_S128x4_S128x16_d1 : Shape.Concatenates [S128x4, S128x4, S128x4, S128x4] S128x16 1
  slices_S128x28_o0_16_S128x4 : S128x28.Slices ![0, 16] S128x4
  broadcasts_S128x1_S128x16 : S128x1.Broadcasts S128x16
  concatenates_S128x16_S128x16_S128x16_S128x16_S128x64_d1 : Shape.Concatenates [S128x16, S128x16, S128x16, S128x16] S128x64 1
  slices_S128x28_o0_12_S128x4 : S128x28.Slices ![0, 12] S128x4
  broadcasts_S128x1_S128x64 : S128x1.Broadcasts S128x64
  concatenates_S128x64_S128x64_S128x64_S128x64_S128x256_d1 : Shape.Concatenates [S128x64, S128x64, S128x64, S128x64] S128x256 1
  slices_S128x28_o0_8_S128x4 : S128x28.Slices ![0, 8] S128x4
  broadcasts_S128x1_S128x256 : S128x1.Broadcasts S128x256
  concatenates_S128x256_S128x256_S128x256_S128x256_S128x1024_d1 : Shape.Concatenates [S128x256, S128x256, S128x256, S128x256] S128x1024 1
  slices_S128x28_o0_4_S128x4 : S128x28.Slices ![0, 4] S128x4
  broadcasts_S128x1_S128x1024 : S128x1.Broadcasts S128x1024
  concatenates_S128x1024_S128x1024_S128x1024_S128x1024_S128x4096_d1 : Shape.Concatenates [S128x1024, S128x1024, S128x1024, S128x1024] S128x4096 1
  slices_S128x28_o0_0_S128x4 : S128x28.Slices ![0, 0] S128x4
  broadcasts_S128x1_S128x4096 : S128x1.Broadcasts S128x4096
  concatenates_S128x4096_S128x4096_S128x4096_S128x4096_S128x16384_d1 : Shape.Concatenates [S128x4096, S128x4096, S128x4096, S128x4096] S128x16384 1
  inb_S128x16384_S128x16384_0_0 : ∀ a, (![0, 0] : Fin 2 → Nat) a + S128x16384.size a ≤ S128x16384.size a
  h_S128x16384 : 0 < S128x16384.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x28.size a ≤ S4096x28.size a
  hwx0_0 : ∀ i : grid0.Coords, EltTy.bits .f32 = 32 ∨ (Rect.block (s := S4096x28) S128x28.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x16384.size a ≤ S4096x16384.size a
  hwx0_1 : ∀ i : grid0.Coords, EltTy.bits .f32 = 32 ∨ (Rect.block (s := S4096x16384) S128x16384.size (cc0_transform_1 i) (hinb0_1 i)).WholeWords (EltTy.packing .f32)

variable [Facts₀]

abbrev win0_0 : Pipeline.Window sig grid0 :=
  Pipeline.Window.ofSpec (Memref.whole main_v0) S128x28.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x16384.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x7x4 : Shape := ⟨3, ![4096, 7, 4]⟩
abbrev S_ : Shape := ⟨0, ![]⟩
abbrev S4096x1 : Shape := ⟨2, ![4096, 1]⟩
abbrev S4096x1x1 : Shape := ⟨3, ![4096, 1, 1]⟩
abbrev S4096x1x4 : Shape := ⟨3, ![4096, 1, 4]⟩
abbrev S4096x4 : Shape := ⟨2, ![4096, 4]⟩
abbrev S4096x4x1 : Shape := ⟨3, ![4096, 4, 1]⟩
abbrev S4096x4x4 : Shape := ⟨3, ![4096, 4, 4]⟩
abbrev S4096x16 : Shape := ⟨2, ![4096, 16]⟩
abbrev S4096x16x1 : Shape := ⟨3, ![4096, 16, 1]⟩
abbrev S4096x16x4 : Shape := ⟨3, ![4096, 16, 4]⟩
abbrev S4096x64 : Shape := ⟨2, ![4096, 64]⟩
abbrev S4096x64x1 : Shape := ⟨3, ![4096, 64, 1]⟩
abbrev S4096x64x4 : Shape := ⟨3, ![4096, 64, 4]⟩
abbrev S4096x256 : Shape := ⟨2, ![4096, 256]⟩
abbrev S4096x256x1 : Shape := ⟨3, ![4096, 256, 1]⟩
abbrev S4096x256x4 : Shape := ⟨3, ![4096, 256, 4]⟩
abbrev S4096x1024 : Shape := ⟨2, ![4096, 1024]⟩
abbrev S4096x1024x1 : Shape := ⟨3, ![4096, 1024, 1]⟩
abbrev S4096x1024x4 : Shape := ⟨3, ![4096, 1024, 4]⟩
abbrev S4096x4096 : Shape := ⟨2, ![4096, 4096]⟩
abbrev S4096x4096x1 : Shape := ⟨3, ![4096, 4096, 1]⟩
abbrev S4096x4096x4 : Shape := ⟨3, ![4096, 4096, 4]⟩
abbrev S4096x16384 : Shape := ⟨2, ![4096, 16384]⟩

abbrev nBuf : Space → Nat
  | .hbm => 61
  | .vmem => 0
  | .smem => 0
  | _ => 0

abbrev bufTy : (tb : Table) → Fin (tcTables nBuf tb) → BufTy
  | .hbm, ⟨0, _⟩ => ⟨S4096x7x4, .f32⟩
  | .hbm, ⟨1, _⟩ => ⟨S_, .f32⟩
  | .hbm, ⟨2, _⟩ => ⟨S4096x7x4, .f32⟩
  | .hbm, ⟨3, _⟩ => ⟨S4096x7x4, .f32⟩
  | .hbm, ⟨4, _⟩ => ⟨S_, .f32⟩
  | .hbm, ⟨5, _⟩ => ⟨S4096x1, .f32⟩
  | .hbm, ⟨6, _⟩ => ⟨S4096x1x1, .f32⟩
  | .hbm, ⟨7, _⟩ => ⟨S4096x1x4, .f32⟩
  | .hbm, ⟨8, _⟩ => ⟨S4096x4, .f32⟩
  | .hbm, ⟨9, _⟩ => ⟨S4096x1x4, .f32⟩
  | .hbm, ⟨10, _⟩ => ⟨S4096x1x4, .f32⟩
  | .hbm, ⟨11, _⟩ => ⟨S4096x1x4, .f32⟩
  | .hbm, ⟨12, _⟩ => ⟨S4096x4, .f32⟩
  | .hbm, ⟨13, _⟩ => ⟨S4096x4x1, .f32⟩
  | .hbm, ⟨14, _⟩ => ⟨S4096x1x4, .f32⟩
  | .hbm, ⟨15, _⟩ => ⟨S4096x4, .f32⟩
  | .hbm, ⟨16, _⟩ => ⟨S4096x1x4, .f32⟩
  | .hbm, ⟨17, _⟩ => ⟨S4096x4x4, .f32⟩
  | .hbm, ⟨18, _⟩ => ⟨S4096x4x4, .f32⟩
  | .hbm, ⟨19, _⟩ => ⟨S4096x4x4, .f32⟩
  | .hbm, ⟨20, _⟩ => ⟨S4096x16, .f32⟩
  | .hbm, ⟨21, _⟩ => ⟨S4096x16x1, .f32⟩
  | .hbm, ⟨22, _⟩ => ⟨S4096x1x4, .f32⟩
  | .hbm, ⟨23, _⟩ => ⟨S4096x4, .f32⟩
  | .hbm, ⟨24, _⟩ => ⟨S4096x1x4, .f32⟩
  | .hbm, ⟨25, _⟩ => ⟨S4096x16x4, .f32⟩
  | .hbm, ⟨26, _⟩ => ⟨S4096x16x4, .f32⟩
  | .hbm, ⟨27, _⟩ => ⟨S4096x16x4, .f32⟩
  | .hbm, ⟨28, _⟩ => ⟨S4096x64, .f32⟩
  | .hbm, ⟨29, _⟩ => ⟨S4096x64x1, .f32⟩
  | .hbm, ⟨30, _⟩ => ⟨S4096x1x4, .f32⟩
  | .hbm, ⟨31, _⟩ => ⟨S4096x4, .f32⟩
  | .hbm, ⟨32, _⟩ => ⟨S4096x1x4, .f32⟩
  | .hbm, ⟨33, _⟩ => ⟨S4096x64x4, .f32⟩
  | .hbm, ⟨34, _⟩ => ⟨S4096x64x4, .f32⟩
  | .hbm, ⟨35, _⟩ => ⟨S4096x64x4, .f32⟩
  | .hbm, ⟨36, _⟩ => ⟨S4096x256, .f32⟩
  | .hbm, ⟨37, _⟩ => ⟨S4096x256x1, .f32⟩
  | .hbm, ⟨38, _⟩ => ⟨S4096x1x4, .f32⟩
  | .hbm, ⟨39, _⟩ => ⟨S4096x4, .f32⟩
  | .hbm, ⟨40, _⟩ => ⟨S4096x1x4, .f32⟩
  | .hbm, ⟨41, _⟩ => ⟨S4096x256x4, .f32⟩
  | .hbm, ⟨42, _⟩ => ⟨S4096x256x4, .f32⟩
  | .hbm, ⟨43, _⟩ => ⟨S4096x256x4, .f32⟩
  | .hbm, ⟨44, _⟩ => ⟨S4096x1024, .f32⟩
  | .hbm, ⟨45, _⟩ => ⟨S4096x1024x1, .f32⟩
  | .hbm, ⟨46, _⟩ => ⟨S4096x1x4, .f32⟩
  | .hbm, ⟨47, _⟩ => ⟨S4096x4, .f32⟩
  | .hbm, ⟨48, _⟩ => ⟨S4096x1x4, .f32⟩
  | .hbm, ⟨49, _⟩ => ⟨S4096x1024x4, .f32⟩
  | .hbm, ⟨50, _⟩ => ⟨S4096x1024x4, .f32⟩
  | .hbm, ⟨51, _⟩ => ⟨S4096x1024x4, .f32⟩
  | .hbm, ⟨52, _⟩ => ⟨S4096x4096, .f32⟩
  | .hbm, ⟨53, _⟩ => ⟨S4096x4096x1, .f32⟩
  | .hbm, ⟨54, _⟩ => ⟨S4096x1x4, .f32⟩
  | .hbm, ⟨55, _⟩ => ⟨S4096x4, .f32⟩
  | .hbm, ⟨56, _⟩ => ⟨S4096x1x4, .f32⟩
  | .hbm, ⟨57, _⟩ => ⟨S4096x4096x4, .f32⟩
  | .hbm, ⟨58, _⟩ => ⟨S4096x4096x4, .f32⟩
  | .hbm, ⟨59, _⟩ => ⟨S4096x4096x4, .f32⟩
  | .hbm, ⟨60, _⟩ => ⟨S4096x16384, .f32⟩
  | _, _ => ⟨S4096x7x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩

abbrev nD : Nat := 1
abbrev τ : Topo := Topo.v7x

variable {F : FTy → Type} [FloatOps F]

class Facts₀ : Prop where
  bcast_S_S4096x7x4 : S_.BroadcastsInDim S4096x7x4 (![] : Fin 0 → Fin S4096x7x4.rank)
  bcast_S_S4096x1 : S_.BroadcastsInDim S4096x1 (![] : Fin 0 → Fin S4096x1.rank)
  bcast_S4096x1_S4096x1x1_0_1 : S4096x1.BroadcastsInDim S4096x1x1 (![0, 1] : Fin 2 → Fin S4096x1x1.rank)
  slices_S4096x7x4_S4096x1x4_0_0_0 : S4096x7x4.Slices ![0, 0, 0] S4096x1x4
  shapeCasts_S4096x1x4_S4096x4 : S4096x1x4.ShapeCasts S4096x4
  bcast_S4096x4_S4096x1x4_0_2 : S4096x4.BroadcastsInDim S4096x1x4 (![0, 2] : Fin 2 → Fin S4096x1x4.rank)
  bcast_S4096x1x1_S4096x1x4_0_1_2 : S4096x1x1.BroadcastsInDim S4096x1x4 (![0, 1, 2] : Fin 3 → Fin S4096x1x4.rank)
  bcast_S4096x4_S4096x4x1_0_1 : S4096x4.BroadcastsInDim S4096x4x1 (![0, 1] : Fin 2 → Fin S4096x4x1.rank)
  slices_S4096x7x4_S4096x1x4_0_1_0 : S4096x7x4.Slices ![0, 1, 0] S4096x1x4
  bcast_S4096x4x1_S4096x4x4_0_1_2 : S4096x4x1.BroadcastsInDim S4096x4x4 (![0, 1, 2] : Fin 3 → Fin S4096x4x4.rank)
  bcast_S4096x1x4_S4096x4x4_0_1_2 : S4096x1x4.BroadcastsInDim S4096x4x4 (![0, 1, 2] : Fin 3 → Fin S4096x4x4.rank)
  shapeCasts_S4096x4x4_S4096x16 : S4096x4x4.ShapeCasts S4096x16
  bcast_S4096x16_S4096x16x1_0_1 : S4096x16.BroadcastsInDim S4096x16x1 (![0, 1] : Fin 2 → Fin S4096x16x1.rank)
  slices_S4096x7x4_S4096x1x4_0_2_0 : S4096x7x4.Slices ![0, 2, 0] S4096x1x4
  bcast_S4096x16x1_S4096x16x4_0_1_2 : S4096x16x1.BroadcastsInDim S4096x16x4 (![0, 1, 2] : Fin 3 → Fin S4096x16x4.rank)
  bcast_S4096x1x4_S4096x16x4_0_1_2 : S4096x1x4.BroadcastsInDim S4096x16x4 (![0, 1, 2] : Fin 3 → Fin S4096x16x4.rank)
  shapeCasts_S4096x16x4_S4096x64 : S4096x16x4.ShapeCasts S4096x64
  bcast_S4096x64_S4096x64x1_0_1 : S4096x64.BroadcastsInDim S4096x64x1 (![0, 1] : Fin 2 → Fin S4096x64x1.rank)
  slices_S4096x7x4_S4096x1x4_0_3_0 : S4096x7x4.Slices ![0, 3, 0] S4096x1x4
  bcast_S4096x64x1_S4096x64x4_0_1_2 : S4096x64x1.BroadcastsInDim S4096x64x4 (![0, 1, 2] : Fin 3 → Fin S4096x64x4.rank)
  bcast_S4096x1x4_S4096x64x4_0_1_2 : S4096x1x4.BroadcastsInDim S4096x64x4 (![0, 1, 2] : Fin 3 → Fin S4096x64x4.rank)
  shapeCasts_S4096x64x4_S4096x256 : S4096x64x4.ShapeCasts S4096x256
  bcast_S4096x256_S4096x256x1_0_1 : S4096x256.BroadcastsInDim S4096x256x1 (![0, 1] : Fin 2 → Fin S4096x256x1.rank)
  slices_S4096x7x4_S4096x1x4_0_4_0 : S4096x7x4.Slices ![0, 4, 0] S4096x1x4
  bcast_S4096x256x1_S4096x256x4_0_1_2 : S4096x256x1.BroadcastsInDim S4096x256x4 (![0, 1, 2] : Fin 3 → Fin S4096x256x4.rank)
  bcast_S4096x1x4_S4096x256x4_0_1_2 : S4096x1x4.BroadcastsInDim S4096x256x4 (![0, 1, 2] : Fin 3 → Fin S4096x256x4.rank)
  shapeCasts_S4096x256x4_S4096x1024 : S4096x256x4.ShapeCasts S4096x1024
  bcast_S4096x1024_S4096x1024x1_0_1 : S4096x1024.BroadcastsInDim S4096x1024x1 (![0, 1] : Fin 2 → Fin S4096x1024x1.rank)
  slices_S4096x7x4_S4096x1x4_0_5_0 : S4096x7x4.Slices ![0, 5, 0] S4096x1x4
  bcast_S4096x1024x1_S4096x1024x4_0_1_2 : S4096x1024x1.BroadcastsInDim S4096x1024x4 (![0, 1, 2] : Fin 3 → Fin S4096x1024x4.rank)
  bcast_S4096x1x4_S4096x1024x4_0_1_2 : S4096x1x4.BroadcastsInDim S4096x1024x4 (![0, 1, 2] : Fin 3 → Fin S4096x1024x4.rank)
  shapeCasts_S4096x1024x4_S4096x4096 : S4096x1024x4.ShapeCasts S4096x4096
  bcast_S4096x4096_S4096x4096x1_0_1 : S4096x4096.BroadcastsInDim S4096x4096x1 (![0, 1] : Fin 2 → Fin S4096x4096x1.rank)
  slices_S4096x7x4_S4096x1x4_0_6_0 : S4096x7x4.Slices ![0, 6, 0] S4096x1x4
  bcast_S4096x4096x1_S4096x4096x4_0_1_2 : S4096x4096x1.BroadcastsInDim S4096x4096x4 (![0, 1, 2] : Fin 3 → Fin S4096x4096x4.rank)
  bcast_S4096x1x4_S4096x4096x4_0_1_2 : S4096x1x4.BroadcastsInDim S4096x4096x4 (![0, 1, 2] : Fin 3 → Fin S4096x4096x4.rank)
  shapeCasts_S4096x4096x4_S4096x16384 : S4096x4096x4.ShapeCasts S4096x16384

variable [Facts₀]

class Facts : Prop extends Facts₀ where

variable [Facts]
-- ==== Proof.Strength.lean ====
/-
  The firing strength of a fuzzy rule, as one function of the membership array.

  The input is an array `x` of shape [4096, 7, 4]: for each of 4096 rows, seven inputs, four membership values each.
  A rule picks one membership function per input: a word `(d₀, …, d₆)` of seven base-4 digits, numbered
  `j = d₀·4⁶ + d₁·4⁵ + … + d₆` (input 0 slowest). Its firing strength on row `b` is the product over the seven inputs of
  `x[b, i, dᵢ] + ε`. Both programs compute it as a chain of seven multiplications starting from `1`; they differ in the order
  in which the factors enter (input 0 first, or input 6 first), and multiplication of extended reals is commutative and
  associative, so the two chains agree with no condition on `x`.

  Throughout, a membership value is addressed by its FLAT column `c = 4·i + d` (`0 ≤ c < 28`), the column it has after the
  array is flattened to [4096, 28].
-/
import Idealize.ShloMosaic.PureOps.Ideal
import Idealize.ShloMosaic.Lib.ValueIdx

noncomputable section

namespace Cert.Strength

open Idealize.ShloMosaic Idealize.ShloMosaic.ValueIdx

/-- The shift `ε` both programs add to every membership value (the same f32 word on both sides: never evaluated). -/
def eps : EReal := Ideal.ofBits .f32 0x358637BD#32

/-- The chain's starting value (the f32 word of `1.0` on both sides: kept as a word, never evaluated). -/
def one : EReal := Ideal.ofBits .f32 0x3F800000#32

/-- The shifted membership value of row `b` at flat column `c`: input `c / 4`, membership function `c % 4`. -/
def mv (x : (⟨3, ![4096, 7, 4]⟩ : Shape).Idx → EReal) (b : Fin 4096) (c : ℕ) : EReal :=
  x (ix3 b ⟨c / 4 % 7, Nat.mod_lt _ (by norm_num)⟩ ⟨c % 4, Nat.mod_lt _ (by norm_num)⟩) + eps

/-- The shifted membership value read at coordinates `(i, d)` is the one at flat column `4·i + d`. -/
theorem mv_at (x : (⟨3, ![4096, 7, 4]⟩ : Shape).Idx → EReal) (b : Fin 4096) (i : Fin 7) (d : Fin 4) (c : ℕ)
    (hc : c = 4 * i.val + d.val) : x (ix3 b i d) + eps = mv x b c := by
  subst hc
  unfold mv
  have hi := i.isLt
  have hd := d.isLt
  congr 2
  funext a
  match a with
  | ⟨0, _⟩ => rfl
  | ⟨1, _⟩ => exact Fin.ext (by show i.val = (4 * i.val + d.val) / 4 % 7; omega)
  | ⟨2, _⟩ => exact Fin.ext (by show d.val = (4 * i.val + d.val) % 4; omega)

/-- THE RESULT: rule `j`'s firing strength on row `b`, the seven shifted membership values its digits select multiplied
    onto `1`, input 0 first. -/
def strength (x : (⟨3, ![4096, 7, 4]⟩ : Shape).Idx → EReal) : (⟨2, ![4096, 16384]⟩ : Shape).Idx → EReal := fun y =>
  one * mv x (y 0) (0 + (y 1).val / 4096 % 4) * mv x (y 0) (4 + (y 1).val / 1024 % 4) * mv x (y 0) (8 + (y 1).val / 256 % 4)
    * mv x (y 0) (12 + (y 1).val / 64 % 4) * mv x (y 0) (16 + (y 1).val / 16 % 4) * mv x (y 0) (20 + (y 1).val / 4 % 4)
    * mv x (y 0) (24 + (y 1).val % 4)

/-- The law that joins the two programs: the chain that takes the factors last-input-first is the chain that takes them
    first-input-first (commutativity and associativity of the product of extended reals; nothing is cancelled or
    distributed, so no finiteness is used). -/
theorem chain_reverse (o a0 a1 a2 a3 a4 a5 a6 : EReal) :
    o * a6 * a5 * a4 * a3 * a2 * a1 * a0 = o * a0 * a1 * a2 * a3 * a4 * a5 * a6 := by
  ac_rfl

end Cert.Strength

end
-- ==== Proof.LibOuterFlatten.lean ====
/-
  An outer product with four columns, flattened, read at an index.

  `P` is a [B, W] array and `A` a [B, K, 4] array. Row `i` of `A`'s middle axis is a [B, 4] array; the outer product of `P`
  with it along the last axes, `P[b, k] · A[b, i, d]`, is a [B, W, 4] array, and flattening its last two axes in row-major
  order gives a [B, W·4] array. Its entry at `(b, j)` is `P[b, j div 4] · A[b, i, j mod 4]`: the old place is the
  quotient, the new digit the remainder. This is one step of an outer-product chain that flattens as it goes;
  `outerFlattenFirst_apply` is the first step, whose left factor has one column and whose right factor is not stretched.
-/
import Idealize.ShloMosaic.PureOps.Ideal
import Idealize.ShloMosaic.Lib.ValueIdx
import Idealize.ShloMosaic.Lib.Pipeline.Value

noncomputable section

namespace Cert.LibOuterFlatten

open Idealize.ShloMosaic Idealize.ShloMosaic.ValueIdx

variable {B K W W4 : ℕ}

/-- Row `i` of `A`'s middle axis, as a [B, 4] array given a unit middle axis again, read at `(b, 0, d)`: it is `A[b, i, d]`. -/
theorem middleRow_apply (A : FVec Ideal ⟨3, ![B, K, 4]⟩ .f32) (i : ℕ)
    (hsl : (⟨3, ![B, K, 4]⟩ : Shape).Slices ![0, i, 0] ⟨3, ![B, 1, 4]⟩)
    (hsc : (⟨3, ![B, 1, 4]⟩ : Shape).ShapeCasts ⟨2, ![B, 4]⟩)
    (hbc : (⟨2, ![B, 4]⟩ : Shape).BroadcastsInDim ⟨3, ![B, 1, 4]⟩ ![0, 2])
    (b : Fin B) (d : Fin 4) (q : Fin K) (hq : q.val = i) :
    broadcastInDim ⟨3, ![B, 1, 4]⟩ ![0, 2] hbc
      (shapeCast ⟨2, ![B, 4]⟩ (extractStridedSlice ⟨3, ![B, 1, 4]⟩ ![0, i, 0] A hsl) hsc) (ix3 b ⟨0, Nat.one_pos⟩ d)
      = A (ix3 b q d) := by
  have hb := b.isLt
  have hd := d.isLt
  refine (broadcastInDim_apply ![0, 2] hbc _ (ix3 b ⟨0, Nat.one_pos⟩ d) (ix2 b d) (fun a => ?_)).trans ?_
  · match a with
    | ⟨0, _⟩ => show b.val = if B = 1 then 0 else b.val; split_ifs <;> omega
    | ⟨1, _⟩ => show d.val = if (4 : ℕ) = 1 then 0 else d.val; rw [if_neg (by decide)]
  refine (shapeCast_apply _ hsc (ix2 b d) (ix3 b ⟨0, Nat.one_pos⟩ d) ?_).trans ?_
  · rw [Shape.rowMajor_val_three, Shape.rowMajor_val_two]
    show (b.val * 1 + 0) * 4 + d.val = b.val * 4 + d.val
    omega
  refine extractStridedSlice_apply ![0, i, 0] A hsl (ix3 b ⟨0, Nat.one_pos⟩ d) (ix3 b q d) (fun a => ?_)
  match a with
  | ⟨0, _⟩ => show b.val = 0 + b.val; omega
  | ⟨1, _⟩ => show q.val = i + 0; omega
  | ⟨2, _⟩ => show d.val = 0 + d.val; omega

/-- THE OUTER PRODUCT of `P` with row `i` of `A`, flattened, read at `(b, j)`: `P[b, j div 4] · A[b, i, j mod 4]`. -/
theorem outerFlatten_apply (hW4 : W4 = W * 4)
    (P : FVec Ideal ⟨2, ![B, W]⟩ .f32) (A : FVec Ideal ⟨3, ![B, K, 4]⟩ .f32) (i : ℕ)
    (hsl : (⟨3, ![B, K, 4]⟩ : Shape).Slices ![0, i, 0] ⟨3, ![B, 1, 4]⟩)
    (hsc : (⟨3, ![B, 1, 4]⟩ : Shape).ShapeCasts ⟨2, ![B, 4]⟩)
    (hbc : (⟨2, ![B, 4]⟩ : Shape).BroadcastsInDim ⟨3, ![B, 1, 4]⟩ ![0, 2])
    (hbp : (⟨2, ![B, W]⟩ : Shape).BroadcastsInDim ⟨3, ![B, W, 1]⟩ ![0, 1])
    (hbP : (⟨3, ![B, W, 1]⟩ : Shape).BroadcastsInDim ⟨3, ![B, W, 4]⟩ ![0, 1, 2])
    (hbC : (⟨3, ![B, 1, 4]⟩ : Shape).BroadcastsInDim ⟨3, ![B, W, 4]⟩ ![0, 1, 2])
    (hfl : (⟨3, ![B, W, 4]⟩ : Shape).ShapeCasts ⟨2, ![B, W4]⟩)
    (b : Fin B) (j : Fin W4) (k : Fin W) (d : Fin 4) (q : Fin K)
    (hk : k.val = j.val / 4) (hd : d.val = j.val % 4) (hq : q.val = i) :
    shapeCast ⟨2, ![B, W4]⟩
      (mulf (broadcastInDim ⟨3, ![B, W, 4]⟩ ![0, 1, 2] hbP (broadcastInDim ⟨3, ![B, W, 1]⟩ ![0, 1] hbp P))
        (broadcastInDim ⟨3, ![B, W, 4]⟩ ![0, 1, 2] hbC (broadcastInDim ⟨3, ![B, 1, 4]⟩ ![0, 2] hbc
          (shapeCast ⟨2, ![B, 4]⟩ (extractStridedSlice ⟨3, ![B, 1, 4]⟩ ![0, i, 0] A hsl) hsc)))) hfl (ix2 b j)
      = P (ix2 b k) * A (ix3 b q d) := by
  subst hW4
  have hb := b.isLt
  have hkl := k.isLt
  have hdl := d.isLt
  refine (shapeCast_apply _ hfl (ix2 b j) (ix3 b k d) ?_).trans ?_
  · rw [Shape.rowMajor_val_three, Shape.rowMajor_val_two]
    show (b.val * W + k.val) * 4 + d.val = b.val * (W * 4) + j.val
    rw [hk, hd, Nat.add_mul, Nat.mul_assoc]
    omega
  show _ * _ = _
  refine congrArg₂ (· * ·) ?_ ?_
  · -- the left factor does not depend on the new digit
    refine (broadcastInDim_apply ![0, 1, 2] hbP _ (ix3 b k d) (ix3 b k ⟨0, Nat.one_pos⟩) (fun a => ?_)).trans ?_
    · match a with
      | ⟨0, _⟩ => show b.val = if B = 1 then 0 else b.val; split_ifs <;> omega
      | ⟨1, _⟩ => show k.val = if W = 1 then 0 else k.val; split_ifs <;> omega
      | ⟨2, _⟩ => show 0 = if (1 : ℕ) = 1 then 0 else d.val; rw [if_pos rfl]
    refine broadcastInDim_apply ![0, 1] hbp P (ix3 b k ⟨0, Nat.one_pos⟩) (ix2 b k) (fun a => ?_)
    match a with
    | ⟨0, _⟩ => show b.val = if B = 1 then 0 else b.val; split_ifs <;> omega
    | ⟨1, _⟩ => show k.val = if W = 1 then 0 else k.val; split_ifs <;> omega
  · -- the right factor does not depend on the old place
    refine (broadcastInDim_apply ![0, 1, 2] hbC _ (ix3 b k d) (ix3 b ⟨0, Nat.one_pos⟩ d) (fun a => ?_)).trans ?_
    · match a with
      | ⟨0, _⟩ => show b.val = if B = 1 then 0 else b.val; split_ifs <;> omega
      | ⟨1, _⟩ => show 0 = if (1 : ℕ) = 1 then 0 else k.val; rw [if_pos rfl]
      | ⟨2, _⟩ => show d.val = if (4 : ℕ) = 1 then 0 else d.val; rw [if_neg (by decide)]
    exact middleRow_apply A i hsl hsc hbc b d q hq

/-- THE FIRST STEP: a one-column `P` against row `i` of `A`, flattened, read at `(b, d)`: `P[b, 0] · A[b, i, d]`. -/
theorem outerFlattenFirst_apply
    (P : FVec Ideal ⟨2, ![B, 1]⟩ .f32) (A : FVec Ideal ⟨3, ![B, K, 4]⟩ .f32) (i : ℕ)
    (hsl : (⟨3, ![B, K, 4]⟩ : Shape).Slices ![0, i, 0] ⟨3, ![B, 1, 4]⟩)
    (hsc : (⟨3, ![B, 1, 4]⟩ : Shape).ShapeCasts ⟨2, ![B, 4]⟩)
    (hbc : (⟨2, ![B, 4]⟩ : Shape).BroadcastsInDim ⟨3, ![B, 1, 4]⟩ ![0, 2])
    (hbp : (⟨2, ![B, 1]⟩ : Shape).BroadcastsInDim ⟨3, ![B, 1, 1]⟩ ![0, 1])
    (hbP : (⟨3, ![B, 1, 1]⟩ : Shape).BroadcastsInDim ⟨3, ![B, 1, 4]⟩ ![0, 1, 2])
    (hfl : (⟨3, ![B, 1, 4]⟩ : Shape).ShapeCasts ⟨2, ![B, 4]⟩)
    (b : Fin B) (d : Fin 4) (q : Fin K) (hq : q.val = i) :
    shapeCast ⟨2, ![B, 4]⟩
      (mulf (broadcastInDim ⟨3, ![B, 1, 4]⟩ ![0, 1, 2] hbP (broadcastInDim ⟨3, ![B, 1, 1]⟩ ![0, 1] hbp P))
        (broadcastInDim ⟨3, ![B, 1, 4]⟩ ![0, 2] hbc
          (shapeCast ⟨2, ![B, 4]⟩ (extractStridedSlice ⟨3, ![B, 1, 4]⟩ ![0, i, 0] A hsl) hsc))) hfl (ix2 b d)
      = P (ix2 b ⟨0, Nat.one_pos⟩) * A (ix3 b q d) := by
  have hb := b.isLt
  have hdl := d.isLt
  refine (shapeCast_apply _ hfl (ix2 b d) (ix3 b ⟨0, Nat.one_pos⟩ d) ?_).trans ?_
  · rw [Shape.rowMajor_val_three, Shape.rowMajor_val_two]
    show (b.val * 1 + 0) * 4 + d.val = b.val * 4 + d.val
    omega
  show _ * _ = _
  refine congrArg₂ (· * ·) ?_ ?_
  · refine (broadcastInDim_apply ![0, 1, 2] hbP _ (ix3 b ⟨0, Nat.one_pos⟩ d) (ix3 b ⟨0, Nat.one_pos⟩ ⟨0, Nat.one_pos⟩) (fun a => ?_)).trans ?_
    · match a with
      | ⟨0, _⟩ => show b.val = if B = 1 then 0 else b.val; split_ifs <;> omega
      | ⟨1, _⟩ => show 0 = if (1 : ℕ) = 1 then 0 else 0; rw [if_pos rfl]
      | ⟨2, _⟩ => show 0 = if (1 : ℕ) = 1 then 0 else d.val; rw [if_pos rfl]
    refine broadcastInDim_apply ![0, 1] hbp P (ix3 b ⟨0, Nat.one_pos⟩ ⟨0, Nat.one_pos⟩) (ix2 b ⟨0, Nat.one_pos⟩) (fun a => ?_)
    match a with
    | ⟨0, _⟩ => show b.val = if B = 1 then 0 else b.val; split_ifs <;> omega
    | ⟨1, _⟩ => show 0 = if (1 : ℕ) = 1 then 0 else 0; rw [if_pos rfl]
  · exact middleRow_apply A i hsl hsc hbc b d q hq

end Cert.LibOuterFlatten

end
-- ==== Proof.ReferenceValue.lean ====
/-
  The reference's result is the firing strength.

  The reference shifts the whole membership array by `ε` once, starts from a column of ones, and for input
  `i = 0, 1, …, 6` in turn forms the outer product of what it has (one column per word of digits chosen so far) with
  input `i`'s four shifted membership values, flattening so that the new digit is the fastest. Read at `(b, j)` each step
  is "the previous array at `j div 4`, times the value the digit `j mod 4` selects"; seven steps down from rule `j` reach the
  starting `1`, and the factors met are those of `strength`, input 0 first.
-/
import proofs.«174917_j15633680957473_1_alg».proof.Proof.Gen.ReferenceIdeal.Read
import proofs.«174917_j15633680957473_1_alg».proof.Proof.Strength
import proofs.«174917_j15633680957473_1_alg».proof.Proof.LibOuterFlatten

noncomputable section

namespace Cert.Strength.Reference

open Cert.ReferenceIdeal Cert.ReferenceIdeal.Read Cert.LibOuterFlatten
open Idealize.ShloMosaic Idealize.ShloMosaic.ValueIdx

/-- The shifted array at an index. -/
theorem shifted_apply (x : S4096x7x4.Idx → EReal) (i : S4096x7x4.Idx) :
    val_main_v1 (F := Ideal) x i = x i + eps := by
  rw [val_main_v1_apply, val_main_v0_apply, val_main_cst_apply]
  rfl

/-- The shifted array at coordinates `(b, i, d)` is the shifted membership value at flat column `c = 4·i + d`. -/
theorem shifted_mv (x : S4096x7x4.Idx → EReal) (b : Fin 4096) (i : Fin 7) (d : Fin 4) (c : ℕ) (hc : c = 4 * i.val + d.val) :
    val_main_v1 (F := Ideal) x (ix3 b i d) = mv x b c :=
  (shifted_apply x _).trans (mv_at x b i d c hc)

/-- The starting column is `1` everywhere. -/
theorem start_apply (i : S4096x1.Idx) : val_main_v2 (F := Ideal) i = one := by
  rw [val_main_v2_apply, val_main_cst_0_apply]
  rfl

/-- After input 0: four columns, digit `d` selecting input 0's value. -/
theorem step0 (x : S4096x7x4.Idx → EReal) (b : Fin 4096) (j : Fin 4) :
    val_main_v9 (F := Ideal) x (ix2 b j) = one * mv x b (0 + j.val % 4) := by
  have hj := j.isLt
  unfold val_main_v9 val_main_v8 val_main_v7 val_main_v6 val_main_v5 val_main_v4 val_main_v3
  refine (outerFlattenFirst_apply (B := 4096) (K := 7) (val_main_v2 (F := Ideal)) (val_main_v1 (F := Ideal) x) 0 _ _ _ _ _ _
    b j ⟨0, by norm_num⟩ rfl).trans ?_
  rw [start_apply, shifted_mv x b ⟨0, by norm_num⟩ j (0 + j.val % 4) (by show 0 + j.val % 4 = 4 * 0 + j.val; omega)]

/-- After input 1: sixteen columns. -/
theorem step1 (x : S4096x7x4.Idx → EReal) (b : Fin 4096) (j : Fin 16) (k : Fin 4) (hk : k.val = j.val / 4) :
    val_main_v17 (F := Ideal) x (ix2 b j) = val_main_v9 (F := Ideal) x (ix2 b k) * mv x b (4 + j.val % 4) := by
  unfold val_main_v17 val_main_v16 val_main_v15 val_main_v14 val_main_v13 val_main_v12 val_main_v11 val_main_v10
  refine (outerFlatten_apply (B := 4096) (K := 7) (W := 4) (W4 := 16) rfl (val_main_v9 (F := Ideal) x) (val_main_v1 (F := Ideal) x) 1 _ _ _ _ _ _ _
    b j k ⟨j.val % 4, Nat.mod_lt _ (by norm_num)⟩ ⟨1, by norm_num⟩ hk rfl rfl).trans ?_
  rw [shifted_mv x b ⟨1, by norm_num⟩ ⟨j.val % 4, Nat.mod_lt _ (by norm_num)⟩ (4 + j.val % 4) rfl]

/-- After input 2: 64 columns. -/
theorem step2 (x : S4096x7x4.Idx → EReal) (b : Fin 4096) (j : Fin 64) (k : Fin 16) (hk : k.val = j.val / 4) :
    val_main_v25 (F := Ideal) x (ix2 b j) = val_main_v17 (F := Ideal) x (ix2 b k) * mv x b (8 + j.val % 4) := by
  unfold val_main_v25 val_main_v24 val_main_v23 val_main_v22 val_main_v21 val_main_v20 val_main_v19 val_main_v18
  refine (outerFlatten_apply (B := 4096) (K := 7) (W := 16) (W4 := 64) rfl (val_main_v17 (F := Ideal) x) (val_main_v1 (F := Ideal) x) 2 _ _ _ _ _ _ _
    b j k ⟨j.val % 4, Nat.mod_lt _ (by norm_num)⟩ ⟨2, by norm_num⟩ hk rfl rfl).trans ?_
  rw [shifted_mv x b ⟨2, by norm_num⟩ ⟨j.val % 4, Nat.mod_lt _ (by norm_num)⟩ (8 + j.val % 4) rfl]

/-- After input 3: 256 columns. -/
theorem step3 (x : S4096x7x4.Idx → EReal) (b : Fin 4096) (j : Fin 256) (k : Fin 64) (hk : k.val = j.val / 4) :
    val_main_v33 (F := Ideal) x (ix2 b j) = val_main_v25 (F := Ideal) x (ix2 b k) * mv x b (12 + j.val % 4) := by
  unfold val_main_v33 val_main_v32 val_main_v31 val_main_v30 val_main_v29 val_main_v28 val_main_v27 val_main_v26
  refine (outerFlatten_apply (B := 4096) (K := 7) (W := 64) (W4 := 256) rfl (val_main_v25 (F := Ideal) x) (val_main_v1 (F := Ideal) x) 3 _ _ _ _ _ _ _
    b j k ⟨j.val % 4, Nat.mod_lt _ (by norm_num)⟩ ⟨3, by norm_num⟩ hk rfl rfl).trans ?_
  rw [shifted_mv x b ⟨3, by norm_num⟩ ⟨j.val % 4, Nat.mod_lt _ (by norm_num)⟩ (12 + j.val % 4) rfl]

/-- After input 4: 1024 columns. -/
theorem step4 (x : S4096x7x4.Idx → EReal) (b : Fin 4096) (j : Fin 1024) (k : Fin 256) (hk : k.val = j.val / 4) :
    val_main_v41 (F := Ideal) x (ix2 b j) = val_main_v33 (F := Ideal) x (ix2 b k) * mv x b (16 + j.val % 4) := by
  unfold val_main_v41 val_main_v40 val_main_v39 val_main_v38 val_main_v37 val_main_v36 val_main_v35 val_main_v34
  refine (outerFlatten_apply (B := 4096) (K := 7) (W := 256) (W4 := 1024) rfl (val_main_v33 (F := Ideal) x) (val_main_v1 (F := Ideal) x) 4 _ _ _ _ _ _ _
    b j k ⟨j.val % 4, Nat.mod_lt _ (by norm_num)⟩ ⟨4, by norm_num⟩ hk rfl rfl).trans ?_
  rw [shifted_mv x b ⟨4, by norm_num⟩ ⟨j.val % 4, Nat.mod_lt _ (by norm_num)⟩ (16 + j.val % 4) rfl]

/-- After input 5: 4096 columns. -/
theorem step5 (x : S4096x7x4.Idx → EReal) (b : Fin 4096) (j : Fin 4096) (k : Fin 1024) (hk : k.val = j.val / 4) :
    val_main_v49 (F := Ideal) x (ix2 b j) = val_main_v41 (F := Ideal) x (ix2 b k) * mv x b (20 + j.val % 4) := by
  unfold val_main_v49 val_main_v48 val_main_v47 val_main_v46 val_main_v45 val_main_v44 val_main_v43 val_main_v42
  refine (outerFlatten_apply (B := 4096) (K := 7) (W := 1024) (W4 := 4096) rfl (val_main_v41 (F := Ideal) x) (val_main_v1 (F := Ideal) x) 5 _ _ _ _ _ _ _
    b j k ⟨j.val % 4, Nat.mod_lt _ (by norm_num)⟩ ⟨5, by norm_num⟩ hk rfl rfl).trans ?_
  rw [shifted_mv x b ⟨5, by norm_num⟩ ⟨j.val % 4, Nat.mod_lt _ (by norm_num)⟩ (20 + j.val % 4) rfl]

/-- After input 6: all 16384 rules. -/
theorem step6 (x : S4096x7x4.Idx → EReal) (b : Fin 4096) (j : Fin 16384) (k : Fin 4096) (hk : k.val = j.val / 4) :
    val_main_v57 (F := Ideal) x (ix2 b j) = val_main_v49 (F := Ideal) x (ix2 b k) * mv x b (24 + j.val % 4) := by
  unfold val_main_v57 val_main_v56 val_main_v55 val_main_v54 val_main_v53 val_main_v52 val_main_v51 val_main_v50
  refine (outerFlatten_apply (B := 4096) (K := 7) (W := 4096) (W4 := 16384) rfl (val_main_v49 (F := Ideal) x) (val_main_v1 (F := Ideal) x) 6 _ _ _ _ _ _ _
    b j k ⟨j.val % 4, Nat.mod_lt _ (by norm_num)⟩ ⟨6, by norm_num⟩ hk rfl rfl).trans ?_
  rw [shifted_mv x b ⟨6, by norm_num⟩ ⟨j.val % 4, Nat.mod_lt _ (by norm_num)⟩ (24 + j.val % 4) rfl]

/-- THE REFERENCE'S RESULT is the firing strength: seven steps down from rule `j`, the place at each earlier step the
    quotient by the matching power of four. -/
theorem result_eq (x : S4096x7x4.Idx → EReal) : val_main_v57 (F := Ideal) x = strength x := by
  funext y
  obtain ⟨b, j, rfl⟩ : ∃ (b : Fin 4096) (j : Fin 16384), y = ix2 b j := ⟨y 0, y 1, eq_ix2 y⟩
  have hj := j.isLt
  rw [step6 x b j ⟨j.val / 4, by omega⟩ rfl,
    step5 x b ⟨j.val / 4, by omega⟩ ⟨j.val / 16, by omega⟩ (by show j.val / 16 = j.val / 4 / 4; omega),
    step4 x b ⟨j.val / 16, by omega⟩ ⟨j.val / 64, by omega⟩ (by show j.val / 64 = j.val / 16 / 4; omega),
    step3 x b ⟨j.val / 64, by omega⟩ ⟨j.val / 256, by omega⟩ (by show j.val / 256 = j.val / 64 / 4; omega),
    step2 x b ⟨j.val / 256, by omega⟩ ⟨j.val / 1024, by omega⟩ (by show j.val / 1024 = j.val / 256 / 4; omega),
    step1 x b ⟨j.val / 1024, by omega⟩ ⟨j.val / 4096, by omega⟩ (by show j.val / 4096 = j.val / 1024 / 4; omega),
    step0 x b ⟨j.val / 4096, by omega⟩]
  rfl

end Cert.Strength.Reference

end
-- ==== Proof.LibScaledCopies.lean ====
/-
  Four scaled copies side by side, read at an index.

  `X` is an [R, W] array and `A` an [R, C] array. Column `o + n` of `A` (`n = 0, 1, 2, 3`), kept as an [R, 1] column and
  stretched along the second axis, scales `X` row by row; the four scaled copies are laid end to end along the second axis,
  giving an [R, 4·W] array. Its entry at `(r, j)` is `X[r, j mod W] · A[r, o + j div W]`: the copy's number is the
  quotient, the place inside the copy the remainder. This is one step of building an outer-product chain without leaving
  two dimensions; the first step, whose `X` is the constant column, is `unitCopies_apply`.
-/
import Idealize.ShloMosaic.PureOps.Ideal
import Idealize.ShloMosaic.Lib.ValueIdx
import Idealize.ShloMosaic.Lib.Pipeline.Value

noncomputable section

namespace Cert.LibScaledCopies

open Idealize.ShloMosaic Idealize.ShloMosaic.ValueIdx

variable {R C W W4 : ℕ}

/-- Column `o + n` of `A`, as a column, stretched to width `W`, read at `(r, k)`: it is `A[r, o + n]`. -/
theorem stretchedColumn_apply (A : FVec Ideal ⟨2, ![R, C]⟩ .f32) (o n : ℕ)
    (hs : (⟨2, ![R, C]⟩ : Shape).Slices ![0, o] ⟨2, ![R, 4]⟩)
    (hn : (⟨2, ![R, 4]⟩ : Shape).Slices ![0, n] ⟨2, ![R, 1]⟩)
    (hb : (⟨2, ![R, 1]⟩ : Shape).Broadcasts ⟨2, ![R, W]⟩) (hR : R ≠ 1)
    (r : Fin R) (k : Fin W) (q : Fin C) (hq : q.val = o + n) :
    broadcastTo ⟨2, ![R, W]⟩ (extractStridedSlice ⟨2, ![R, 1]⟩ ![0, n] (extractStridedSlice ⟨2, ![R, 4]⟩ ![0, o] A hs) hn) hb
      (ix2 r k) = A (ix2 r q) := by
  have hn4 : n + 1 ≤ 4 := hn.2 1
  refine (broadcastTo_apply _ hb (ix2 r k) (ix2 r ⟨0, Nat.one_pos⟩) (fun a => ?_)).trans ?_
  · match a with
    | ⟨0, _⟩ => show r.val = if R = 1 then 0 else r.val; rw [if_neg hR]
    | ⟨1, _⟩ => show 0 = if (1 : ℕ) = 1 then 0 else k.val; rw [if_pos rfl]
  refine (extractStridedSlice_apply ![0, n] _ hn (ix2 r ⟨0, Nat.one_pos⟩) (ix2 r ⟨n, by omega⟩) (fun a => ?_)).trans ?_
  · match a with
    | ⟨0, _⟩ => show r.val = 0 + r.val; omega
    | ⟨1, _⟩ => show n = n + 0; omega
  refine extractStridedSlice_apply ![0, o] A hs (ix2 r ⟨n, by omega⟩) (ix2 r q) (fun a => ?_)
  match a with
  | ⟨0, _⟩ => show r.val = 0 + r.val; omega
  | ⟨1, _⟩ => show q.val = o + n; exact hq

/-- Four copies of `X` side by side, copy `n` scaled row by row by column `o + n` of `A`. -/
def scaledCopies (X : FVec Ideal ⟨2, ![R, W]⟩ .f32) (A : FVec Ideal ⟨2, ![R, C]⟩ .f32) (o : ℕ)
    (hs : (⟨2, ![R, C]⟩ : Shape).Slices ![0, o] ⟨2, ![R, 4]⟩)
    (h0 : (⟨2, ![R, 4]⟩ : Shape).Slices ![0, 0] ⟨2, ![R, 1]⟩)
    (h1 : (⟨2, ![R, 4]⟩ : Shape).Slices ![0, 1] ⟨2, ![R, 1]⟩)
    (h2 : (⟨2, ![R, 4]⟩ : Shape).Slices ![0, 2] ⟨2, ![R, 1]⟩)
    (h3 : (⟨2, ![R, 4]⟩ : Shape).Slices ![0, 3] ⟨2, ![R, 1]⟩)
    (hb : (⟨2, ![R, 1]⟩ : Shape).Broadcasts ⟨2, ![R, W]⟩)
    (hc : Shape.Concatenates [⟨2, ![R, W]⟩, ⟨2, ![R, W]⟩, ⟨2, ![R, W]⟩, ⟨2, ![R, W]⟩] ⟨2, ![R, W4]⟩ 1) :
    FVec Ideal ⟨2, ![R, W4]⟩ .f32 :=
  concatenate (⟨2, ![R, W4]⟩ : Shape) 1
    [⟨⟨2, ![R, W]⟩, mulf X (broadcastTo ⟨2, ![R, W]⟩ (extractStridedSlice ⟨2, ![R, 1]⟩ ![0, 0] (extractStridedSlice ⟨2, ![R, 4]⟩ ![0, o] A hs) h0) hb)⟩,
     ⟨⟨2, ![R, W]⟩, mulf X (broadcastTo ⟨2, ![R, W]⟩ (extractStridedSlice ⟨2, ![R, 1]⟩ ![0, 1] (extractStridedSlice ⟨2, ![R, 4]⟩ ![0, o] A hs) h1) hb)⟩,
     ⟨⟨2, ![R, W]⟩, mulf X (broadcastTo ⟨2, ![R, W]⟩ (extractStridedSlice ⟨2, ![R, 1]⟩ ![0, 2] (extractStridedSlice ⟨2, ![R, 4]⟩ ![0, o] A hs) h2) hb)⟩,
     ⟨⟨2, ![R, W]⟩, mulf X (broadcastTo ⟨2, ![R, W]⟩ (extractStridedSlice ⟨2, ![R, 1]⟩ ![0, 3] (extractStridedSlice ⟨2, ![R, 4]⟩ ![0, o] A hs) h3) hb)⟩]
    hc

/-- FOUR SCALED COPIES of `X` side by side, copy `n` scaled by column `o + n` of `A`, read at `(r, j)`:
    `X[r, j mod W] · A[r, o + j div W]`. -/
theorem scaledCopies_apply (hW4 : W4 = 4 * W) (hR : R ≠ 1)
    (X : FVec Ideal ⟨2, ![R, W]⟩ .f32) (A : FVec Ideal ⟨2, ![R, C]⟩ .f32) (o : ℕ)
    (hs : (⟨2, ![R, C]⟩ : Shape).Slices ![0, o] ⟨2, ![R, 4]⟩)
    (h0 : (⟨2, ![R, 4]⟩ : Shape).Slices ![0, 0] ⟨2, ![R, 1]⟩)
    (h1 : (⟨2, ![R, 4]⟩ : Shape).Slices ![0, 1] ⟨2, ![R, 1]⟩)
    (h2 : (⟨2, ![R, 4]⟩ : Shape).Slices ![0, 2] ⟨2, ![R, 1]⟩)
    (h3 : (⟨2, ![R, 4]⟩ : Shape).Slices ![0, 3] ⟨2, ![R, 1]⟩)
    (hb : (⟨2, ![R, 1]⟩ : Shape).Broadcasts ⟨2, ![R, W]⟩)
    (hc : Shape.Concatenates [⟨2, ![R, W]⟩, ⟨2, ![R, W]⟩, ⟨2, ![R, W]⟩, ⟨2, ![R, W]⟩] ⟨2, ![R, W4]⟩ 1)
    (r : Fin R) (j : Fin W4) (k : Fin W) (q : Fin C) (hk : k.val = j.val % W) (hq : q.val = o + j.val / W) :
    scaledCopies X A o hs h0 h1 h2 h3 hb hc (ix2 r j) = X (ix2 r k) * A (ix2 r q) := by
  unfold scaledCopies
  have hj : j.val < 4 * W := hW4 ▸ j.isLt
  have hWpos : 0 < W := by omega
  -- the four pieces as a family over the copy's number
  let f : Fin 4 → ((⟨2, ![R, W]⟩ : Shape).Idx → EReal) := fun n => match n with
    | ⟨0, _⟩ => mulf X (broadcastTo ⟨2, ![R, W]⟩ (extractStridedSlice ⟨2, ![R, 1]⟩ ![0, 0] (extractStridedSlice ⟨2, ![R, 4]⟩ ![0, o] A hs) h0) hb)
    | ⟨1, _⟩ => mulf X (broadcastTo ⟨2, ![R, W]⟩ (extractStridedSlice ⟨2, ![R, 1]⟩ ![0, 1] (extractStridedSlice ⟨2, ![R, 4]⟩ ![0, o] A hs) h1) hb)
    | ⟨2, _⟩ => mulf X (broadcastTo ⟨2, ![R, W]⟩ (extractStridedSlice ⟨2, ![R, 1]⟩ ![0, 2] (extractStridedSlice ⟨2, ![R, 4]⟩ ![0, o] A hs) h2) hb)
    | ⟨3, _⟩ => mulf X (broadcastTo ⟨2, ![R, W]⟩ (extractStridedSlice ⟨2, ![R, 1]⟩ ![0, 3] (extractStridedSlice ⟨2, ![R, 4]⟩ ![0, o] A hs) h3) hb)
  have hn : j.val / W < 4 := (Nat.div_lt_iff_lt_mul hWpos).2 hj
  show concatenate (⟨2, ![R, W4]⟩ : Shape) 1 (List.ofFn fun n : Fin 4 => (⟨⟨2, ![R, W]⟩, f n⟩ : (s : Shape) × (s.Idx → EReal))) hc (ix2 r j) = _
  refine (concatenate_ofFn_apply (t := ⟨2, ![R, W4]⟩) (s₁ := ⟨2, ![R, W]⟩) (1 : Fin 2) f hc rfl W rfl (ix2 r j)
    ⟨j.val / W, hn⟩ rfl (ix2 r k) hk (fun b hb' => ?_)).trans ?_
  · match b with
    | ⟨0, _⟩ => rfl
    | ⟨1, _⟩ => exact absurd rfl hb'
  -- the copy the quotient names
  obtain ⟨n, hn'⟩ : ∃ n : Fin 4, n.val = j.val / W := ⟨⟨j.val / W, hn⟩, rfl⟩
  have e : (⟨j.val / W, hn⟩ : Fin 4) = n := Fin.ext hn'.symm
  rw [e]
  match n, hn' with
  | ⟨0, _⟩, hn' => exact congrArg (X (ix2 r k) * ·) (stretchedColumn_apply A o 0 hs h0 hb hR r k q (by rw [hq, ← hn']))
  | ⟨1, _⟩, hn' => exact congrArg (X (ix2 r k) * ·) (stretchedColumn_apply A o 1 hs h1 hb hR r k q (by rw [hq, ← hn']))
  | ⟨2, _⟩, hn' => exact congrArg (X (ix2 r k) * ·) (stretchedColumn_apply A o 2 hs h2 hb hR r k q (by rw [hq, ← hn']))
  | ⟨3, _⟩, hn' => exact congrArg (X (ix2 r k) * ·) (stretchedColumn_apply A o 3 hs h3 hb hR r k q (by rw [hq, ← hn']))

/-- The constant column `u` scaled by each of the four columns `o, …, o + 3` of `A`, side by side. -/
def unitCopies (u : EReal) (A : FVec Ideal ⟨2, ![R, C]⟩ .f32) (o : ℕ)
    (hs : (⟨2, ![R, C]⟩ : Shape).Slices ![0, o] ⟨2, ![R, 4]⟩)
    (h0 : (⟨2, ![R, 4]⟩ : Shape).Slices ![0, 0] ⟨2, ![R, 1]⟩)
    (h1 : (⟨2, ![R, 4]⟩ : Shape).Slices ![0, 1] ⟨2, ![R, 1]⟩)
    (h2 : (⟨2, ![R, 4]⟩ : Shape).Slices ![0, 2] ⟨2, ![R, 1]⟩)
    (h3 : (⟨2, ![R, 4]⟩ : Shape).Slices ![0, 3] ⟨2, ![R, 1]⟩)
    (hc : Shape.Concatenates [⟨2, ![R, 1]⟩, ⟨2, ![R, 1]⟩, ⟨2, ![R, 1]⟩, ⟨2, ![R, 1]⟩] ⟨2, ![R, 4]⟩ 1) :
    FVec Ideal ⟨2, ![R, 4]⟩ .f32 :=
  concatenate (⟨2, ![R, 4]⟩ : Shape) 1
    [⟨⟨2, ![R, 1]⟩, mulf (broadcast ⟨2, ![R, 1]⟩ u) (extractStridedSlice ⟨2, ![R, 1]⟩ ![0, 0] (extractStridedSlice ⟨2, ![R, 4]⟩ ![0, o] A hs) h0)⟩,
     ⟨⟨2, ![R, 1]⟩, mulf (broadcast ⟨2, ![R, 1]⟩ u) (extractStridedSlice ⟨2, ![R, 1]⟩ ![0, 1] (extractStridedSlice ⟨2, ![R, 4]⟩ ![0, o] A hs) h1)⟩,
     ⟨⟨2, ![R, 1]⟩, mulf (broadcast ⟨2, ![R, 1]⟩ u) (extractStridedSlice ⟨2, ![R, 1]⟩ ![0, 2] (extractStridedSlice ⟨2, ![R, 4]⟩ ![0, o] A hs) h2)⟩,
     ⟨⟨2, ![R, 1]⟩, mulf (broadcast ⟨2, ![R, 1]⟩ u) (extractStridedSlice ⟨2, ![R, 1]⟩ ![0, 3] (extractStridedSlice ⟨2, ![R, 4]⟩ ![0, o] A hs) h3)⟩]
    hc

/-- THE FIRST STEP: the constant column `u` scaled by each of the four columns `o, …, o + 3` of `A`, side by side, read at
    `(r, j)`: `u · A[r, o + j]`. -/
theorem unitCopies_apply (hR : R ≠ 1) (u : EReal) (A : FVec Ideal ⟨2, ![R, C]⟩ .f32) (o : ℕ)
    (hs : (⟨2, ![R, C]⟩ : Shape).Slices ![0, o] ⟨2, ![R, 4]⟩)
    (h0 : (⟨2, ![R, 4]⟩ : Shape).Slices ![0, 0] ⟨2, ![R, 1]⟩)
    (h1 : (⟨2, ![R, 4]⟩ : Shape).Slices ![0, 1] ⟨2, ![R, 1]⟩)
    (h2 : (⟨2, ![R, 4]⟩ : Shape).Slices ![0, 2] ⟨2, ![R, 1]⟩)
    (h3 : (⟨2, ![R, 4]⟩ : Shape).Slices ![0, 3] ⟨2, ![R, 1]⟩)
    (hc : Shape.Concatenates [⟨2, ![R, 1]⟩, ⟨2, ![R, 1]⟩, ⟨2, ![R, 1]⟩, ⟨2, ![R, 1]⟩] ⟨2, ![R, 4]⟩ 1)
    (r : Fin R) (j : Fin 4) (q : Fin C) (hq : q.val = o + j.val) :
    unitCopies u A o hs h0 h1 h2 h3 hc (ix2 r j) = u * A (ix2 r q) := by
  unfold unitCopies
  let f : Fin 4 → ((⟨2, ![R, 1]⟩ : Shape).Idx → EReal) := fun n => match n with
    | ⟨0, _⟩ => mulf (broadcast ⟨2, ![R, 1]⟩ u) (extractStridedSlice ⟨2, ![R, 1]⟩ ![0, 0] (extractStridedSlice ⟨2, ![R, 4]⟩ ![0, o] A hs) h0)
    | ⟨1, _⟩ => mulf (broadcast ⟨2, ![R, 1]⟩ u) (extractStridedSlice ⟨2, ![R, 1]⟩ ![0, 1] (extractStridedSlice ⟨2, ![R, 4]⟩ ![0, o] A hs) h1)
    | ⟨2, _⟩ => mulf (broadcast ⟨2, ![R, 1]⟩ u) (extractStridedSlice ⟨2, ![R, 1]⟩ ![0, 2] (extractStridedSlice ⟨2, ![R, 4]⟩ ![0, o] A hs) h2)
    | ⟨3, _⟩ => mulf (broadcast ⟨2, ![R, 1]⟩ u) (extractStridedSlice ⟨2, ![R, 1]⟩ ![0, 3] (extractStridedSlice ⟨2, ![R, 4]⟩ ![0, o] A hs) h3)
  have hjlt := j.isLt
  show concatenate (⟨2, ![R, 4]⟩ : Shape) 1 (List.ofFn fun n : Fin 4 => (⟨⟨2, ![R, 1]⟩, f n⟩ : (s : Shape) × (s.Idx → EReal))) hc (ix2 r j) = _
  refine (concatenate_ofFn_apply (t := ⟨2, ![R, 4]⟩) (s₁ := ⟨2, ![R, 1]⟩) (1 : Fin 2) f hc rfl 1 rfl (ix2 r j)
    j (Nat.div_one _) (ix2 r ⟨0, Nat.one_pos⟩) (by show 0 = j.val % 1; omega) (fun b hb' => ?_)).trans ?_
  · match b with
    | ⟨0, _⟩ => rfl
    | ⟨1, _⟩ => exact absurd rfl hb'
  -- a column of a column of `A`, read at its one place
  have col : ∀ (n : ℕ) (hn : (⟨2, ![R, 4]⟩ : Shape).Slices ![0, n] ⟨2, ![R, 1]⟩), j.val = n →
      extractStridedSlice ⟨2, ![R, 1]⟩ ![0, n] (extractStridedSlice ⟨2, ![R, 4]⟩ ![0, o] A hs) hn (ix2 r ⟨0, Nat.one_pos⟩) = A (ix2 r q) := by
    intro n hn hjn
    have hn4 : n + 1 ≤ 4 := hn.2 1
    refine (extractStridedSlice_apply ![0, n] _ hn (ix2 r ⟨0, Nat.one_pos⟩) (ix2 r ⟨n, by omega⟩) (fun a => ?_)).trans ?_
    · match a with
      | ⟨0, _⟩ => show r.val = 0 + r.val; omega
      | ⟨1, _⟩ => show n = n + 0; omega
    refine extractStridedSlice_apply ![0, o] A hs (ix2 r ⟨n, by omega⟩) (ix2 r q) (fun a => ?_)
    match a with
    | ⟨0, _⟩ => show r.val = 0 + r.val; omega
    | ⟨1, _⟩ => show q.val = o + n; omega
  match j with
  | ⟨0, _⟩ => exact congrArg (u * ·) (col 0 h0 rfl)
  | ⟨1, _⟩ => exact congrArg (u * ·) (col 1 h1 rfl)
  | ⟨2, _⟩ => exact congrArg (u * ·) (col 2 h2 rfl)
  | ⟨3, _⟩ => exact congrArg (u * ·) (col 3 h3 rfl)

end Cert.LibScaledCopies

end
-- ==== Proof.KernelBlock.lean ====
/-
  What the kernel body stores, read at an index.

  The body loads its [128, 28] block `P` of the flattened membership array, shifts it by `ε`, and starting from the
  constant column of ones folds the inputs in from the LAST to the first: at each of seven steps the array so far is
  copied four times side by side, copy `n` scaled by the current input's `n`-th shifted membership value, so the current
  input's digit becomes the slowest. Read at `(r, j)` each step is "the previous array at `j mod W`, times the value the
  digit `j div W` selects" (`W` the previous width): seven steps down from rule `j` reach the starting `1`, and the factors
  met are those of `strength`, input 6 first. The two chains are equal because the product of extended reals is
  commutative and associative.
-/
import proofs.«174917_j15633680957473_1_alg».proof.Proof.Gen.KernelIdeal.Skeleton
import proofs.«174917_j15633680957473_1_alg».proof.Proof.Strength
import proofs.«174917_j15633680957473_1_alg».proof.Proof.LibScaledCopies

noncomputable section

namespace Cert.Strength.Kernel

open Cert.KernelIdeal Cert.KernelIdeal.Gen Cert.LibScaledCopies
open Idealize.ShloMosaic Idealize.ShloMosaic.ValueIdx

variable (P : Vec Ideal S128x28 .f32)

/-- The shifted block at an index. -/
theorem shifted_apply (i : S128x28.Idx) : k0_pay2 (F := Ideal) P i = P i + eps := by
  have h : k0_pay2 (F := Ideal) P
      = addf (shapeCast S128x28 P Facts₀.shapeCasts_S128x28_S128x28) (broadcast S128x28 (Scalar.ofBits .f32 0x358637BD#32)) := rfl
  rw [h, shapeCast_self]
  rfl

/-- Row `r`'s shifted value at flat column `q` of the block. -/
def col (r : Fin 128) (q : ℕ) : EReal := k0_pay2 (F := Ideal) P (ix2 r ⟨q % 28, Nat.mod_lt _ (by norm_num)⟩)

/-! ## The seven arrays of the chain: widths 4, 16, 64, 256, 1024, 4096, 16384 -/

/-- After input 6. -/
def chain1 : FVec Ideal S128x4 .f32 :=
  unitCopies (R := 128) (C := 28) (Scalar.ofBits (F := Ideal) .f32 0x3F800000#32) (k0_pay2 (F := Ideal) P) 24
    Facts₀.slices_S128x28_o0_24_S128x4 Facts₀.slices_S128x4_o0_0_S128x1 Facts₀.slices_S128x4_o0_1_S128x1 Facts₀.slices_S128x4_o0_2_S128x1
    Facts₀.slices_S128x4_o0_3_S128x1 Facts₀.concatenates_S128x1_S128x1_S128x1_S128x1_S128x4_d1
/-- After input 5. -/
def chain2 : FVec Ideal S128x16 .f32 :=
  scaledCopies (R := 128) (C := 28) (W := 4) (W4 := 16) (chain1 P) (k0_pay2 (F := Ideal) P) 20
    Facts₀.slices_S128x28_o0_20_S128x4 Facts₀.slices_S128x4_o0_0_S128x1 Facts₀.slices_S128x4_o0_1_S128x1 Facts₀.slices_S128x4_o0_2_S128x1
    Facts₀.slices_S128x4_o0_3_S128x1 Facts₀.broadcasts_S128x1_S128x4 Facts₀.concatenates_S128x4_S128x4_S128x4_S128x4_S128x16_d1
/-- After input 4. -/
def chain3 : FVec Ideal S128x64 .f32 :=
  scaledCopies (R := 128) (C := 28) (W := 16) (W4 := 64) (chain2 P) (k0_pay2 (F := Ideal) P) 16
    Facts₀.slices_S128x28_o0_16_S128x4 Facts₀.slices_S128x4_o0_0_S128x1 Facts₀.slices_S128x4_o0_1_S128x1 Facts₀.slices_S128x4_o0_2_S128x1
    Facts₀.slices_S128x4_o0_3_S128x1 Facts₀.broadcasts_S128x1_S128x16 Facts₀.concatenates_S128x16_S128x16_S128x16_S128x16_S128x64_d1
/-- After input 3. -/
def chain4 : FVec Ideal S128x256 .f32 :=
  scaledCopies (R := 128) (C := 28) (W := 64) (W4 := 256) (chain3 P) (k0_pay2 (F := Ideal) P) 12
    Facts₀.slices_S128x28_o0_12_S128x4 Facts₀.slices_S128x4_o0_0_S128x1 Facts₀.slices_S128x4_o0_1_S128x1 Facts₀.slices_S128x4_o0_2_S128x1
    Facts₀.slices_S128x4_o0_3_S128x1 Facts₀.broadcasts_S128x1_S128x64 Facts₀.concatenates_S128x64_S128x64_S128x64_S128x64_S128x256_d1
/-- After input 2. -/
def chain5 : FVec Ideal S128x1024 .f32 :=
  scaledCopies (R := 128) (C := 28) (W := 256) (W4 := 1024) (chain4 P) (k0_pay2 (F := Ideal) P) 8
    Facts₀.slices_S128x28_o0_8_S128x4 Facts₀.slices_S128x4_o0_0_S128x1 Facts₀.slices_S128x4_o0_1_S128x1 Facts₀.slices_S128x4_o0_2_S128x1
    Facts₀.slices_S128x4_o0_3_S128x1 Facts₀.broadcasts_S128x1_S128x256 Facts₀.concatenates_S128x256_S128x256_S128x256_S128x256_S128x1024_d1
/-- After input 1. -/
def chain6 : FVec Ideal S128x4096 .f32 :=
  scaledCopies (R := 128) (C := 28) (W := 1024) (W4 := 4096) (chain5 P) (k0_pay2 (F := Ideal) P) 4
    Facts₀.slices_S128x28_o0_4_S128x4 Facts₀.slices_S128x4_o0_0_S128x1 Facts₀.slices_S128x4_o0_1_S128x1 Facts₀.slices_S128x4_o0_2_S128x1
    Facts₀.slices_S128x4_o0_3_S128x1 Facts₀.broadcasts_S128x1_S128x1024 Facts₀.concatenates_S128x1024_S128x1024_S128x1024_S128x1024_S128x4096_d1
/-- After input 0: the block the body stores. -/
def chain7 : FVec Ideal S128x16384 .f32 :=
  scaledCopies (R := 128) (C := 28) (W := 4096) (W4 := 16384) (chain6 P) (k0_pay2 (F := Ideal) P) 0
    Facts₀.slices_S128x28_o0_0_S128x4 Facts₀.slices_S128x4_o0_0_S128x1 Facts₀.slices_S128x4_o0_1_S128x1 Facts₀.slices_S128x4_o0_2_S128x1
    Facts₀.slices_S128x4_o0_3_S128x1 Facts₀.broadcasts_S128x1_S128x4096 Facts₀.concatenates_S128x4096_S128x4096_S128x4096_S128x4096_S128x16384_d1

/-- The stored value IS the seventh array of the chain (the body's lines, unfolded, are these seven steps). -/
theorem payload_eq : k0_pay1 (F := Ideal) (k0_pay2 P) (k0_pay3 P) (k0_pay5 P) (k0_pay6 P) (k0_pay7 P) (k0_pay8 P) = chain7 P := rfl

/-! ## Each step at an index -/

theorem chain1_apply (r : Fin 128) (j : Fin 4) : chain1 P (ix2 r j) = one * col P r (24 + j.val) := by
  have hj := j.isLt
  unfold chain1 col
  exact unitCopies_apply (by norm_num) _ _ 24 _ _ _ _ _ _ r j ⟨(24 + j.val) % 28, Nat.mod_lt _ (by norm_num)⟩
    (by show (24 + j.val) % 28 = 24 + j.val; omega)

theorem chain2_apply (r : Fin 128) (j : Fin 16) (k : Fin 4) (hk : k.val = j.val % 4) :
    chain2 P (ix2 r j) = chain1 P (ix2 r k) * col P r (20 + j.val / 4) := by
  have hj := j.isLt
  unfold chain2 col
  exact scaledCopies_apply rfl (by norm_num) _ _ 20 _ _ _ _ _ _ _ r j k ⟨(20 + j.val / 4) % 28, Nat.mod_lt _ (by norm_num)⟩ hk
    (by show (20 + j.val / 4) % 28 = 20 + j.val / 4; omega)

theorem chain3_apply (r : Fin 128) (j : Fin 64) (k : Fin 16) (hk : k.val = j.val % 16) :
    chain3 P (ix2 r j) = chain2 P (ix2 r k) * col P r (16 + j.val / 16) := by
  have hj := j.isLt
  unfold chain3 col
  exact scaledCopies_apply rfl (by norm_num) _ _ 16 _ _ _ _ _ _ _ r j k ⟨(16 + j.val / 16) % 28, Nat.mod_lt _ (by norm_num)⟩ hk
    (by show (16 + j.val / 16) % 28 = 16 + j.val / 16; omega)

theorem chain4_apply (r : Fin 128) (j : Fin 256) (k : Fin 64) (hk : k.val = j.val % 64) :
    chain4 P (ix2 r j) = chain3 P (ix2 r k) * col P r (12 + j.val / 64) := by
  have hj := j.isLt
  unfold chain4 col
  exact scaledCopies_apply rfl (by norm_num) _ _ 12 _ _ _ _ _ _ _ r j k ⟨(12 + j.val / 64) % 28, Nat.mod_lt _ (by norm_num)⟩ hk
    (by show (12 + j.val / 64) % 28 = 12 + j.val / 64; omega)

theorem chain5_apply (r : Fin 128) (j : Fin 1024) (k : Fin 256) (hk : k.val = j.val % 256) :
    chain5 P (ix2 r j) = chain4 P (ix2 r k) * col P r (8 + j.val / 256) := by
  have hj := j.isLt
  unfold chain5 col
  exact scaledCopies_apply rfl (by norm_num) _ _ 8 _ _ _ _ _ _ _ r j k ⟨(8 + j.val / 256) % 28, Nat.mod_lt _ (by norm_num)⟩ hk
    (by show (8 + j.val / 256) % 28 = 8 + j.val / 256; omega)

theorem chain6_apply (r : Fin 128) (j : Fin 4096) (k : Fin 1024) (hk : k.val = j.val % 1024) :
    chain6 P (ix2 r j) = chain5 P (ix2 r k) * col P r (4 + j.val / 1024) := by
  have hj := j.isLt
  unfold chain6 col
  exact scaledCopies_apply rfl (by norm_num) _ _ 4 _ _ _ _ _ _ _ r j k ⟨(4 + j.val / 1024) % 28, Nat.mod_lt _ (by norm_num)⟩ hk
    (by show (4 + j.val / 1024) % 28 = 4 + j.val / 1024; omega)

theorem chain7_apply (r : Fin 128) (j : Fin 16384) (k : Fin 4096) (hk : k.val = j.val % 4096) :
    chain7 P (ix2 r j) = chain6 P (ix2 r k) * col P r (0 + j.val / 4096) := by
  have hj := j.isLt
  unfold chain7 col
  exact scaledCopies_apply rfl (by norm_num) _ _ 0 _ _ _ _ _ _ _ r j k ⟨(0 + j.val / 4096) % 28, Nat.mod_lt _ (by norm_num)⟩ hk
    (by show (0 + j.val / 4096) % 28 = 0 + j.val / 4096; omega)

/-- THE STORED VALUE at `(r, j)`: seven steps down from rule `j`, the place at each earlier step the remainder by the
    matching power of four, the digit the quotient of that remainder. -/
theorem payload_apply (r : Fin 128) (j : Fin 16384) :
    k0_pay1 (F := Ideal) (k0_pay2 P) (k0_pay3 P) (k0_pay5 P) (k0_pay6 P) (k0_pay7 P) (k0_pay8 P) (ix2 r j)
      = one * col P r (24 + j.val % 4) * col P r (20 + j.val % 16 / 4) * col P r (16 + j.val % 64 / 16)
        * col P r (12 + j.val % 256 / 64) * col P r (8 + j.val % 1024 / 256) * col P r (4 + j.val % 4096 / 1024)
        * col P r (0 + j.val / 4096) := by
  have hj := j.isLt
  rw [payload_eq,
    chain7_apply P r j ⟨j.val % 4096, Nat.mod_lt _ (by norm_num)⟩ rfl,
    chain6_apply P r ⟨j.val % 4096, Nat.mod_lt _ (by norm_num)⟩ ⟨j.val % 1024, Nat.mod_lt _ (by norm_num)⟩
      (by show j.val % 1024 = j.val % 4096 % 1024; omega),
    chain5_apply P r ⟨j.val % 1024, Nat.mod_lt _ (by norm_num)⟩ ⟨j.val % 256, Nat.mod_lt _ (by norm_num)⟩
      (by show j.val % 256 = j.val % 1024 % 256; omega),
    chain4_apply P r ⟨j.val % 256, Nat.mod_lt _ (by norm_num)⟩ ⟨j.val % 64, Nat.mod_lt _ (by norm_num)⟩
      (by show j.val % 64 = j.val % 256 % 64; omega),
    chain3_apply P r ⟨j.val % 64, Nat.mod_lt _ (by norm_num)⟩ ⟨j.val % 16, Nat.mod_lt _ (by norm_num)⟩
      (by show j.val % 16 = j.val % 64 % 16; omega),
    chain2_apply P r ⟨j.val % 16, Nat.mod_lt _ (by norm_num)⟩ ⟨j.val % 4, Nat.mod_lt _ (by norm_num)⟩
      (by show j.val % 4 = j.val % 16 % 4; omega),
    chain1_apply P r ⟨j.val % 4, Nat.mod_lt _ (by norm_num)⟩]

/-- THE STORED VALUE IS THE FIRING STRENGTH of the row whose shifted membership values the block's row `r` holds
    (`hcol`): the chain that takes the inputs last-first is the chain that takes them first-first, and each digit read
    as "quotient of a remainder" is the digit read as "remainder of a quotient". -/
theorem payload_strength (x : (⟨3, ![4096, 7, 4]⟩ : Shape).Idx → EReal) (b : Fin 4096) (r : Fin 128)
    (hcol : ∀ q : ℕ, q < 28 → col P r q = mv x b q) (j : Fin 16384) :
    k0_pay1 (F := Ideal) (k0_pay2 P) (k0_pay3 P) (k0_pay5 P) (k0_pay6 P) (k0_pay7 P) (k0_pay8 P) (ix2 r j)
      = strength x (ix2 b j) := by
  have hj := j.isLt
  have e0 : 0 + j.val / 4096 = 0 + j.val / 4096 % 4 := by omega
  have e1 : 4 + j.val % 4096 / 1024 = 4 + j.val / 1024 % 4 := by omega
  have e2 : 8 + j.val % 1024 / 256 = 8 + j.val / 256 % 4 := by omega
  have e3 : 12 + j.val % 256 / 64 = 12 + j.val / 64 % 4 := by omega
  have e4 : 16 + j.val % 64 / 16 = 16 + j.val / 16 % 4 := by omega
  have e5 : 20 + j.val % 16 / 4 = 20 + j.val / 4 % 4 := by omega
  rw [payload_apply, hcol _ (by omega), hcol _ (by omega), hcol _ (by omega), hcol _ (by omega), hcol _ (by omega),
    hcol _ (by omega), hcol _ (by omega), chain_reverse, e0, e1, e2, e3, e4, e5]
  rfl

end Cert.Strength.Kernel

end
-- ==== Proof.KernelValue.lean ====
/-
  The kernel's result array is the firing strength.

  The program flattens the membership array `x` [4096, 7, 4] to [4096, 28] (row-major: flat column `q` is input `q div 4`,
  membership function `q mod 4`) and runs the body once per block of 128 rows: point `t` reads rows `128·t … 128·t + 127` of
  the flattened array and writes the same rows of the [4096, 16384] result. So row `r` of point `t`'s input block holds the
  membership values of row `128·t + r` of `x`, what the body stores there is that row's firing strengths (KernelBlock),
  each point writes back its block of `strength x`, and the 32 blocks cover the result array.
-/
import proofs.«174917_j15633680957473_1_alg».proof.Proof.Gen.KernelIdeal.Frame
import proofs.«174917_j15633680957473_1_alg».proof.Proof.KernelBlock
import Idealize.ShloMosaic.Lib.Pipeline.Value
import Idealize.ShloMosaic.Lib.StableHlo.Run

set_option maxRecDepth 16384

noncomputable section

namespace Cert.Strength.Kernel

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

/-- A block row that holds row `b` of the flattened array holds row `b`'s shifted membership values: the flattened
    array at `(b, q)` is `x[b, q div 4, q mod 4]`. -/
theorem col_of_flat (P : Vec Ideal S128x28 .f32) (x : S4096x7x4.Idx → EReal) (hsc : S4096x7x4.ShapeCasts S4096x28)
    (r : Fin 128) (b : Fin 4096) (hP : ∀ q : Fin 28, P (ix2 r q) = shapeCast S4096x28 x hsc (ix2 b q)) :
    ∀ q : ℕ, q < 28 → col P r q = mv x b q := by
  intro q hq
  have hb := b.isLt
  unfold col mv
  rw [shifted_apply, hP]
  refine congrArg (· + eps) ?_
  refine shapeCast_apply x hsc _ _ ?_
  rw [Shape.rowMajor_val_three, Shape.rowMajor_val_two]
  show (b.val * 7 + q / 4 % 7) * 4 + q % 4 = b.val * 28 + q % 28
  omega

/-- The stored value at a block index `y` is the firing strength at an array index `i` with the same rule number whose row's
    shifted membership values the block's row `y 0` holds. -/
theorem payload_strength_at (P : Vec Ideal S128x28 .f32) (x : S4096x7x4.Idx → EReal) (y : S128x16384.Idx) (i : S4096x16384.Idx)
    (hi : (i 1).val = (y 1).val) (hcol : ∀ q : ℕ, q < 28 → col P (y 0) q = mv x (i 0) q) :
    k0_pay1 (F := Ideal) (k0_pay2 P) (k0_pay3 P) (k0_pay5 P) (k0_pay6 P) (k0_pay7 P) (k0_pay8 P) y = strength x i := by
  obtain ⟨r, j, rfl⟩ : ∃ (r : Fin 128) (j : Fin 16384), y = ix2 r j := ⟨y 0, y 1, eq_ix2 y⟩
  obtain ⟨b, j', rfl⟩ : ∃ (b : Fin 4096) (j' : Fin 16384), i = ix2 b j' := ⟨i 0, i 1, eq_ix2 i⟩
  obtain rfl : j = j' := Fin.ext hi.symm
  exact payload_strength P x b r hcol j

variable (m : (ℓ : Loc nD τ sig) → Buf (Elt Ideal) ℓ) (ρ : Dev nD → PrngReg)

theorem zero_offsets : (![0, 0] : Fin 2 → Nat) = fun _ => 0 := funext fun a => by fin_cases a <;> rfl

/-- The flattened array as the region finds it: the one host operation before the region is the reshape of the argument. -/
theorem flat_eq (c : Dev nD) : (V m c main_v0 : S4096x28.Idx → EReal)
    = shapeCast S4096x28 (m ((c : Thread nD τ).loc main_arg0)) Facts₀.shapeCasts_S4096x7x4_S4096x28 := by
  dsimp only [Gen.V, Gen.hostOps0]
  after_results
  rfl

/-- The index maps, decided over the 32 points: the input's block moves with the output's along the rows, point `t`'s block
    is block `t`, and neither moves along the columns. -/
theorem index_facts : ∀ t : Fin cfg0.N, win0_0.index t (0 : Fin 2) = win0_1.index t (0 : Fin 2) ∧ win0_0.index t (1 : Fin 2) = 0
    ∧ win0_1.index t (1 : Fin 2) = 0 ∧ win0_1.index t (0 : Fin 2) = t.val :=
  (by decide +kernel : ∀ t : Fin grid0.N, win0_0.index t (0 : Fin 2) = win0_1.index t (0 : Fin 2) ∧ win0_0.index t (1 : Fin 2) = 0
    ∧ win0_1.index t (1 : Fin 2) = 0 ∧ win0_1.index t (0 : Fin 2) = t.val)

/-- WHAT POINT `t` WRITES BACK is block `t` of the firing strengths of the argument. -/
theorem flushed_eq (c : Dev nD) (t : Fin cfg0.N) :
    (dats m 0 c).flushed 1 t = ((cfg0.win 1).blk t).view.read (Elt Ideal) (strength (m ((c : Thread nD τ).loc main_arg0))) := by
  show (cfg0.win 1).cut (grid0.coords t) ((dats m 0 c).after 1 t) = _
  rw [after0_1]
  unfold out0_1
  rw [View.canon_unit_zero zero_offsets]
  simp only [View.ld_unit_zero (S := S128x28) zero_offsets]
  obtain ⟨e0, e1, e2, -⟩ := index_facts t
  funext y
  show k0_pay1 (F := Ideal) (k0_pay2 (iblk m c 0 t)) (k0_pay3 (iblk m c 0 t)) (k0_pay5 (iblk m c 0 t)) (k0_pay6 (iblk m c 0 t))
      (k0_pay7 (iblk m c 0 t)) (k0_pay8 (iblk m c 0 t)) y
    = strength (m ((c : Thread nD τ).loc main_arg0)) (((cfg0.win 1).blk t).view.emb y)
  refine payload_strength_at (iblk m c 0 t) (m ((c : Thread nD τ).loc main_arg0)) y (((cfg0.win 1).blk t).view.emb y) ?_ ?_
  · show win0_1.index t (1 : Fin 2) * 16384 + 1 * (y 1).val = (y 1).val
    omega
  · refine col_of_flat (iblk m c 0 t) _ Facts₀.shapeCasts_S4096x7x4_S4096x28 (y 0) _ ?_
    intro q
    show V m c main_v0 (((cfg0.win 0).blk t).view.emb (ix2 (y 0) q)) = _
    refine (congrFun (flat_eq m c) _).trans ?_
    refine congrArg _ (funext fun a => Fin.ext ?_)
    match a with
    | ⟨0, _⟩ =>
      show win0_0.index t (0 : Fin 2) * 128 + 1 * (y 0).val = win0_1.index t (0 : Fin 2) * 128 + 1 * (y 0).val
      omega
    | ⟨1, _⟩ =>
      show win0_0.index t (1 : Fin 2) * 28 + 1 * q.val = q.val
      omega

/-- An index of the result array is in point `t`'s block iff each coordinate is in the block's range on its axis. -/
theorem mem_blk (t : Fin cfg0.N) (i : S4096x16384.Idx) :
    i ∈ ((cfg0.win 1).blk t).view.set ↔ ∀ a : Fin 2, win0_1.index t a * S128x16384.size a ≤ (i a).val
      ∧ (i a).val < win0_1.index t a * S128x16384.size a + S128x16384.size a := by
  show i ∈ ((View.whole main_v1).slice (win0_1.rect t)).set ↔ _
  rw [View.set_slice_whole, Rect.mem_set_unit]
  exact Iff.rfl

/-- THE RESULT ARRAY after the run is the firing strengths of the argument: row `b` is in the block of point `b div 128`. -/
theorem final (c : Dev nD) : (dats m 0 c).arrAt 1 cfg0.N = strength (m ((c : Thread nD τ).loc main_arg0)) :=
  (dats m 0 c).arrAt_eq_of_cover 1 _ (fun t _ => flushed_eq m c t) fun i => by
    have hi0 : (i 0).val < 4096 := (i 0).isLt
    have hi1 : (i 1).val < 16384 := (i 1).isLt
    have hN : cfg0.N = 32 := N_0
    obtain ⟨t, ht⟩ : ∃ t : Fin cfg0.N, t.val = (i 0).val / 128 := ⟨⟨(i 0).val / 128, by rw [hN]; omega⟩, rfl⟩
    obtain ⟨-, -, e2, e3⟩ := index_facts t
    refine ⟨t, flush0_1 t, ?_⟩
    rw [mem_blk]
    intro a
    match a with
    | ⟨0, _⟩ =>
      show win0_1.index t (0 : Fin 2) * 128 ≤ (i 0).val ∧ (i 0).val < win0_1.index t (0 : Fin 2) * 128 + 128
      omega
    | ⟨1, _⟩ =>
      show win0_1.index t (1 : Fin 2) * 16384 ≤ (i 1).val ∧ (i 1).val < win0_1.index t (1 : Fin 2) * 16384 + 16384
      omega

/-- THE KERNEL'S RUN: every weakly fair execution terminates with the result array at the firing strengths of the argument
    and the argument unchanged (the frame run, its output array named and read). -/
theorem run : θ_run defs (onTc (τ := τ) (main (F := Ideal))) ⟨m, fun _ => 0, ρ⟩ fun r => ∀ c : Dev nD,
      r.2.mem ((c : Thread nD τ).loc main_v1) = strength (m ((c : Thread nD τ).loc main_arg0))
      ∧ r.2.mem ((c : Thread nD τ).loc main_arg0) = m ((c : Thread nD τ).loc main_arg0) :=
  (θ_run defs _ _).mono (fun r h c => ⟨((h c).1 1).trans (final m c),
      ((h c).2 main_arg0 (Pipeline.mem_restRefs_of main_arg0 (by decide) (by decide))).trans (V_main_arg0 m c)⟩)
    (run_main m ρ)

end Cert.Strength.Kernel

end
-- ==== Proof.lean ====
/-
  The firing strengths of all 4⁷ fuzzy rules: the kernel against its reference, over the extended reals.

  For a membership array `x` [4096, 7, 4], rule `j = (d₀, …, d₆)` (seven base-4 digits, input 0 slowest) fires on row `b`
  with strength `∏ᵢ (x[b, i, dᵢ] + ε)`. The reference builds the 16384 products of a row by outer products that take the
  inputs first to last; the kernel, 128 rows at a time, by side-by-side scaled copies that take them last to first. Each is a
  chain of seven multiplications starting from `1`, over the same seven factors, and the product of extended reals is
  commutative and associative: the two results are equal for every `x`, so the precondition is never opened.

  Proof/Strength.lean states the result as one function of `x` and the law between the two chains;
  Proof/LibOuterFlatten.lean and Proof/LibScaledCopies.lean read one step of each construction at an index;
  Proof/ReferenceValue.lean shows the reference's result is that function, Proof/KernelBlock.lean that the block the kernel
  body stores is, Proof/KernelValue.lean that the kernel's result array is. The three frames are the generated ones (the
  reference's is its generated run with the result dropped); the idealization rewrote nothing, so `preserves` is trivial.
-/
import proofs.«174917_j15633680957473_1_alg».proof.Defs
import proofs.«174917_j15633680957473_1_alg».proof.Proof.Gen.Kernel
import proofs.«174917_j15633680957473_1_alg».proof.Proof.Gen.Kernel.Skeleton
import proofs.«174917_j15633680957473_1_alg».proof.Proof.Gen.Kernel.Launch
import proofs.«174917_j15633680957473_1_alg».proof.Proof.Gen.Kernel.Points
import proofs.«174917_j15633680957473_1_alg».proof.Proof.Gen.Kernel.Frame
import proofs.«174917_j15633680957473_1_alg».proof.Proof.Gen.KernelIdeal
import proofs.«174917_j15633680957473_1_alg».proof.Proof.Gen.KernelIdeal.Skeleton
import proofs.«174917_j15633680957473_1_alg».proof.Proof.Gen.KernelIdeal.Launch
import proofs.«174917_j15633680957473_1_alg».proof.Proof.Gen.KernelIdeal.Points
import proofs.«174917_j15633680957473_1_alg».proof.Proof.Gen.KernelIdeal.Frame
import proofs.«174917_j15633680957473_1_alg».proof.Proof.Gen.ReferenceIdeal
import proofs.«174917_j15633680957473_1_alg».proof.Proof.Gen.Pre_finite_inputs
import proofs.«174917_j15633680957473_1_alg».proof.Proof.Gen.ReferenceIdeal.Run
import proofs.«174917_j15633680957473_1_alg».proof.Proof.Gen.ReferenceIdeal.Read
import proofs.«174917_j15633680957473_1_alg».proof.Proof.ReferenceValue
import proofs.«174917_j15633680957473_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at `strength` of the argument: the kernel by its run read block by block, the
    reference by its run read operation by operation; the arguments agree, so the results do. -/
theorem algebraic : Cert.algebraic_KernelIdeal_ReferenceIdeal := by
  intro m ρ m' ρ' _ hagree
  refine ⟨fun c => Cert.Strength.strength (m ((c.tc : Thread Cert.KernelIdeal.nD Cert.KernelIdeal.τ).loc Cert.KernelIdeal.main_arg0)),
    Cert.Strength.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v57_eq, Cert.Strength.Reference.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
